-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel

variable [Facts]

def fn {F : FTy → Type} [FloatOps F] (main_arg0 : FVec F S32x512x56x56 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  main_v3
-- ==== Kernel.lean ====
abbrev S32x512x56x56 : Shape := ⟨4, ![32, 512, 56, 56]⟩
abbrev S32x512x1x1 : Shape := ⟨4, ![32, 512, 1, 1]⟩
abbrev S1x512x56x56 : Shape := ⟨4, ![1, 512, 56, 56]⟩
abbrev S1x512x1x1 : Shape := ⟨4, ![1, 512, 1, 1]⟩
abbrev S1x512x56 : Shape := ⟨3, ![1, 512, 56]⟩
abbrev S1x512x56x1 : Shape := ⟨4, ![1, 512, 56, 1]⟩
abbrev S1x512x1 : Shape := ⟨3, ![1, 512, 1]⟩
abbrev S32x16x32x1x1 : Shape := ⟨5, ![32, 16, 32, 1, 1]⟩
abbrev S32x32x16x1x1 : Shape := ⟨5, ![32, 32, 16, 1, 1]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S32x512x56x56, .f32⟩
  | .hbm, ⟨1, _⟩ => ⟨S32x512x1x1, .f32⟩
  | .hbm, ⟨2, _⟩ => ⟨S32x16x32x1x1, .f32⟩
  | .hbm, ⟨3, _⟩ => ⟨S32x32x16x1x1, .f32⟩
  | .hbm, ⟨4, _⟩ => ⟨S32x512x1x1, .f32⟩
  | .hbm, ⟨5, _⟩ => ⟨S32x32x16x1x1, .f32⟩
  | .hbm, ⟨6, _⟩ => ⟨S32x16x32x1x1, .f32⟩
  | .hbm, ⟨7, _⟩ => ⟨S32x512x1x1, .f32⟩
  | .hbm, ⟨8, _⟩ => ⟨S32x512x1x1, .f32⟩
  | .hbm, ⟨9, _⟩ => ⟨S32x512x1x1, .f32⟩
  | .hbm, ⟨10, _⟩ => ⟨S_, .f32⟩
  | .hbm, ⟨11, _⟩ => ⟨S32x512x1x1, .f32⟩
  | .hbm, ⟨12, _⟩ => ⟨S32x512x1x1, .f32⟩
  | .hbm, ⟨13, _⟩ => ⟨S_, .f32⟩
  | .hbm, ⟨14, _⟩ => ⟨S32x512x1x1, .f32⟩
  | .hbm, ⟨15, _⟩ => ⟨S32x512x1x1, .f32⟩
  | .hbm, ⟨16, _⟩ => ⟨S32x512x56x56, .f32⟩
  | .local _ .vmem, ⟨0, _⟩ => ⟨S1x512x56x56, .f32⟩
  | .local _ .vmem, ⟨1, _⟩ => ⟨S1x512x56x56, .f32⟩
  | .local _ .vmem, ⟨2, _⟩ => ⟨S1x512x1x1, .f32⟩
  | .local _ .vmem, ⟨3, _⟩ => ⟨S1x512x1x1, .f32⟩
  | .local _ .vmem, ⟨4, _⟩ => ⟨S1x512x56x56, .f32⟩
  | .local _ .vmem, ⟨5, _⟩ => ⟨S1x512x56x56, .f32⟩
  | .local _ .vmem, ⟨6, _⟩ => ⟨S1x512x1x1, .f32⟩
  | .local _ .vmem, ⟨7, _⟩ => ⟨S1x512x1x1, .f32⟩
  | .local _ .vmem, ⟨8, _⟩ => ⟨S1x512x56x56, .f32⟩
  | .local _ .vmem, ⟨9, _⟩ => ⟨S1x512x56x56, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x512x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x56x56 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x512x56x56_S1x512x56x56_0_0_0_0 : ∀ a, (![0, 0, 0, 0] : Fin 4 → Nat) a + S1x512x56x56.size a ≤ S1x512x56x56.size a
  h_S1x512x56x56 : 0 < S1x512x56x56.numel
  reduces_S1x512x56x56_S1x512x56 : S1x512x56x56.Reduces [3] S1x512x56
  shapeCasts_S1x512x56_S1x512x56x1 : S1x512x56.ShapeCasts S1x512x56x1
  reduces_S1x512x56x1_S1x512x1 : S1x512x56x1.Reduces [2] S1x512x1
  shapeCasts_S1x512x1_S1x512x1x1 : S1x512x1.ShapeCasts S1x512x1x1
  inb_S1x512x1x1_S1x512x1x1_0_0_0_0 : ∀ a, (![0, 0, 0, 0] : Fin 4 → Nat) a + S1x512x1x1.size a ≤ S1x512x1x1.size a
  h_S1x512x1x1 : 0 < S1x512x1x1.numel
  shapeCasts_S32x512x1x1_S32x16x32x1x1 : S32x512x1x1.ShapeCasts S32x16x32x1x1
  transposes_S32x16x32x1x1_S32x32x16x1x1_0_2_1_3_4 : S32x16x32x1x1.Transposes [0, 2, 1, 3, 4] S32x32x16x1x1
  shapeCasts_S32x32x16x1x1_S32x512x1x1 : S32x32x16x1x1.ShapeCasts S32x512x1x1
  shapeCasts_S32x512x1x1_S32x32x16x1x1 : S32x512x1x1.ShapeCasts S32x32x16x1x1
  transposes_S32x32x16x1x1_S32x16x32x1x1_0_2_1_3_4 : S32x32x16x1x1.Transposes [0, 2, 1, 3, 4] S32x16x32x1x1
  shapeCasts_S32x16x32x1x1_S32x512x1x1 : S32x16x32x1x1.ShapeCasts S32x512x1x1
  bcast_S_S32x512x1x1 : S_.BroadcastsInDim S32x512x1x1 (![] : Fin 0 → Fin S32x512x1x1.rank)
  shapeCasts_S1x512x1x1_S1x512x1x1 : S1x512x1x1.ShapeCasts S1x512x1x1
  broadcasts_S1x512x1x1_S1x512x56x56 : S1x512x1x1.Broadcasts S1x512x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x56x56.size a ≤ S32x512x56x56.size a
  hwx0_0 : ∀ i : grid0.Coords, EltTy.bits .f32 = 32 ∨ (Rect.block (s := S32x512x56x56) S1x512x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1x1.size a ≤ S32x512x1x1.size a
  hwx0_1 : ∀ i : grid0.Coords, EltTy.bits .f32 = 32 ∨ (Rect.block (s := S32x512x1x1) S1x512x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x56x56.size a ≤ S32x512x56x56.size a
  hwx1_0 : ∀ i : grid1.Coords, EltTy.bits .f32 = 32 ∨ (Rect.block (s := S32x512x56x56) S1x512x56x56.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1x1.size a ≤ S32x512x1x1.size a
  hwx1_1 : ∀ i : grid1.Coords, EltTy.bits .f32 = 32 ∨ (Rect.block (s := S32x512x1x1) S1x512x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x56x56.size a ≤ S32x512x56x56.size a
  hwx1_2 : ∀ i : grid1.Coords, EltTy.bits .f32 = 32 ∨ (Rect.block (s := S32x512x56x56) S1x512x56x56.size (cc1_transform_2 i) (hinb1_2 i)).WholeWords (EltTy.packing .f32)

variable [Facts₀]

abbrev win0_0 : Pipeline.Window sig grid0 :=
  Pipeline.Window.ofSpec (Memref.whole main_arg0) S1x512x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x512x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x512x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x512x56x56.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x512x56x56 : Shape := ⟨4, ![32, 512, 56, 56]⟩
abbrev S_ : Shape := ⟨0, ![]⟩
abbrev S32x512 : Shape := ⟨2, ![32, 512]⟩
abbrev S32x512x1x1 : Shape := ⟨4, ![32, 512, 1, 1]⟩
abbrev S32x16x32x1x1 : Shape := ⟨5, ![32, 16, 32, 1, 1]⟩
abbrev S32x32x16x1x1 : Shape := ⟨5, ![32, 32, 16, 1, 1]⟩

abbrev nBuf : Space → Nat
  | .hbm => 21
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S_, .f32⟩
  | .hbm, ⟨2, _⟩ => ⟨S32x512, .f32⟩
  | .hbm, ⟨3, _⟩ => ⟨S32x512x1x1, .f32⟩
  | .hbm, ⟨4, _⟩ => ⟨S32x16x32x1x1, .f32⟩
  | .hbm, ⟨5, _⟩ => ⟨S32x32x16x1x1, .f32⟩
  | .hbm, ⟨6, _⟩ => ⟨S32x512x1x1, .f32⟩
  | .hbm, ⟨7, _⟩ => ⟨S32x32x16x1x1, .f32⟩
  | .hbm, ⟨8, _⟩ => ⟨S32x16x32x1x1, .f32⟩
  | .hbm, ⟨9, _⟩ => ⟨S32x512x1x1, .f32⟩
  | .hbm, ⟨10, _⟩ => ⟨S32x512x1x1, .f32⟩
  | .hbm, ⟨11, _⟩ => ⟨S32x512x1x1, .f32⟩
  | .hbm, ⟨12, _⟩ => ⟨S_, .f32⟩
  | .hbm, ⟨13, _⟩ => ⟨S32x512x1x1, .f32⟩
  | .hbm, ⟨14, _⟩ => ⟨S32x512x1x1, .f32⟩
  | .hbm, ⟨15, _⟩ => ⟨S_, .f32⟩
  | .hbm, ⟨16, _⟩ => ⟨S32x512x1x1, .f32⟩
  | .hbm, ⟨17, _⟩ => ⟨S32x512x1x1, .f32⟩
  | .hbm, ⟨18, _⟩ => ⟨S32x512x56x56, .f32⟩
  | .hbm, ⟨19, _⟩ => ⟨S32x512x56x56, .f32⟩
  | .hbm, ⟨20, _⟩ => ⟨S32x512x56x56, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  reducesTo_S32x512x56x56_S32x512_d2_3 : S32x512x56x56.ReducesTo [2, 3] S32x512
  h_S_ : 0 < S_.numel
  bcast_S32x512_S32x512x1x1_0_1 : S32x512.BroadcastsInDim S32x512x1x1 (![0, 1] : Fin 2 → Fin S32x512x1x1.rank)
  shapeCasts_S32x512x1x1_S32x16x32x1x1 : S32x512x1x1.ShapeCasts S32x16x32x1x1
  transposes_S32x16x32x1x1_S32x32x16x1x1_0_2_1_3_4 : S32x16x32x1x1.Transposes [0, 2, 1, 3, 4] S32x32x16x1x1
  shapeCasts_S32x32x16x1x1_S32x512x1x1 : S32x32x16x1x1.ShapeCasts S32x512x1x1
  shapeCasts_S32x512x1x1_S32x32x16x1x1 : S32x512x1x1.ShapeCasts S32x32x16x1x1
  transposes_S32x32x16x1x1_S32x16x32x1x1_0_2_1_3_4 : S32x32x16x1x1.Transposes [0, 2, 1, 3, 4] S32x16x32x1x1
  shapeCasts_S32x16x32x1x1_S32x512x1x1 : S32x16x32x1x1.ShapeCasts S32x512x1x1
  bcast_S_S32x512x1x1 : S_.BroadcastsInDim S32x512x1x1 (![] : Fin 0 → Fin S32x512x1x1.rank)
  bcast_S32x512x1x1_S32x512x56x56_0_1_2_3 : S32x512x1x1.BroadcastsInDim S32x512x56x56 (![0, 1, 2, 3] : Fin 4 → Fin S32x512x56x56.rank)

variable [Facts₀]

class Facts : Prop extends Facts₀ where

variable [Facts]
-- ==== Proof.PoolSpec.lean ====
/-
  The pooled descriptor.  `pool x b c` is the maximum of channel `c` of image `b` over its 56 × 56 spatial positions
  (the maximum of no number being `-∞`).  Three computations of it are identified here, all by the universal property
  of a maximum (`m ≤ z` iff every entry is `≤ z`), which is blind to the order and the grouping of the comparisons:

    * one image's block reduced along its last axis and then along the axis before it, each from `-∞`
      (what the first region's body stores for channel `c`);
    * the whole array reduced over both spatial axes at once from `-∞` (the reference);
    * `pool` of a block against `pool` of the array it was cut from.
-/
import Idealize.ShloMosaic.PureOps.Ideal.Laws
import Idealize.ShloMosaic.Lib.ValueIdx
import Idealize.ShloMosaic.Lib.Pipeline.Value

noncomputable section

namespace Cert.Pool

open Idealize.ShloMosaic Idealize.ShloMosaic.ValueIdx

/-- The spatial maximum of channel `c` of image `b`. -/
def pool {B : Nat} (x : (⟨4, ![B, 512, 56, 56]⟩ : Shape).Idx → EReal) (b : Fin B) (c : Fin 512) : EReal :=
  (Finset.univ : Finset (Fin 56 × Fin 56)).fold max ⊥ (fun hw => x (ix4 b c hw.1 hw.2))

/-- It is the least bound of the channel's entries. -/
theorem pool_le_iff {B : Nat} (x : (⟨4, ![B, 512, 56, 56]⟩ : Shape).Idx → EReal) (b : Fin B) (c : Fin 512) (z : EReal) :
    pool x b c ≤ z ↔ ∀ (h w : Fin 56), x (ix4 b c h w) ≤ z := by
  unfold pool
  rw [Finset.fold_max_le]
  constructor
  · intro hh h w; exact hh.2 (h, w) (Finset.mem_univ _)
  · intro hh; exact ⟨bot_le, fun hw _ => hh hw.1 hw.2⟩

/-- The f32 pattern `0xFF800000` denotes `-∞`. -/
theorem neg_inf_word : Ideal.ofBits .f32 0xFF800000#32 = ⊥ := by simp [Ideal.ofBits, Ideal.ieee]

/-- A fold of the maximum from `-∞` over a finite set is below `z` iff every member is. -/
theorem fold_maximumf_le_iff {ι : Type} (S : Finset ι) (f : ι → Ideal .f32) (z : EReal) :
    S.fold (FloatOps.maximumf (F := Ideal) (φ := .f32)) (FloatOps.ofBits (F := Ideal) .f32 0xFF800000#32) f ≤ z
      ↔ ∀ i ∈ S, f i ≤ z := by
  show S.fold max (Ideal.ofBits .f32 0xFF800000#32) f ≤ z ↔ _
  rw [neg_inf_word, Finset.fold_max_le]
  exact ⟨fun h => h.2, fun h => ⟨bot_le, h⟩⟩

/-! ## Which indices a reduction sends to a result index -/

/-- Reducing the last axis of `[1, 512, 56, 56]` keeps the first three coordinates. -/
theorem drop_last_iff (hr : (⟨4, ![1, 512, 56, 56]⟩ : Shape).Reduces [3] ⟨3, ![1, 512, 56]⟩)
    (i : (⟨4, ![1, 512, 56, 56]⟩ : Shape).Idx) (k : (⟨3, ![1, 512, 56]⟩ : Shape).Idx) :
    hr.drop i = k ↔ (i 0).val = (k 0).val ∧ (i 1).val = (k 1).val ∧ (i 2).val = (k 2).val := by
  constructor
  · intro h; subst h
    exact ⟨(hr.drop_apply_val_of_eq i 0 0).symm, (hr.drop_apply_val_of_eq i 1 1).symm, (hr.drop_apply_val_of_eq i 2 2).symm⟩
  · rintro ⟨h0, h1, h2⟩
    funext b; apply Fin.ext
    match b with
    | ⟨0, _⟩ => exact (hr.drop_apply_val_of_eq i 0 0).trans h0
    | ⟨1, _⟩ => exact (hr.drop_apply_val_of_eq i 1 1).trans h1
    | ⟨2, _⟩ => exact (hr.drop_apply_val_of_eq i 2 2).trans h2

/-- Reducing axis 2 of `[1, 512, 56, 1]` keeps coordinates 0, 1 and 3. -/
theorem drop_mid_iff (hr : (⟨4, ![1, 512, 56, 1]⟩ : Shape).Reduces [2] ⟨3, ![1, 512, 1]⟩)
    (i : (⟨4, ![1, 512, 56, 1]⟩ : Shape).Idx) (k : (⟨3, ![1, 512, 1]⟩ : Shape).Idx) :
    hr.drop i = k ↔ (i 0).val = (k 0).val ∧ (i 1).val = (k 1).val ∧ (i 3).val = (k 2).val := by
  constructor
  · intro h; subst h
    exact ⟨(hr.drop_apply_val_of_eq i 0 0).symm, (hr.drop_apply_val_of_eq i 1 1).symm, (hr.drop_apply_val_of_eq i 2 3).symm⟩
  · rintro ⟨h0, h1, h2⟩
    funext b; apply Fin.ext
    match b with
    | ⟨0, _⟩ => exact (hr.drop_apply_val_of_eq i 0 0).trans h0
    | ⟨1, _⟩ => exact (hr.drop_apply_val_of_eq i 1 1).trans h1
    | ⟨2, _⟩ => exact (hr.drop_apply_val_of_eq i 2 3).trans h2

/-- Reducing both spatial axes of `[32, 512, 56, 56]` keeps the image and the channel. -/
theorem drop_spatial_iff (hr : (⟨4, ![32, 512, 56, 56]⟩ : Shape).ReducesTo [2, 3] ⟨2, ![32, 512]⟩)
    (i : (⟨4, ![32, 512, 56, 56]⟩ : Shape).Idx) (k : (⟨2, ![32, 512]⟩ : Shape).Idx) :
    hr.drop i = k ↔ (i 0).val = (k 0).val ∧ (i 1).val = (k 1).val := by
  constructor
  · intro h; subst h
    exact ⟨(hr.drop_apply_val_of_eq i 0 0).symm, (hr.drop_apply_val_of_eq i 1 1).symm⟩
  · rintro ⟨h0, h1⟩
    funext b; apply Fin.ext
    match b with
    | ⟨0, _⟩ => exact (hr.drop_apply_val_of_eq i 0 0).trans h0
    | ⟨1, _⟩ => exact (hr.drop_apply_val_of_eq i 1 1).trans h1

end Cert.Pool

end
-- ==== Proof.PoolForms.lean ====
/-
  Two computations of the pooled descriptor (`Cert.Pool.pool`).

  One image's block `[1, 512, 56, 56]` reduced by the maximum along its last axis, the result given a unit axis,
  reduced again along the remaining spatial axis and given a unit axis once more: entry `(0, c, 0, 0)` is the
  maximum over `h` of the maxima over `w`, which has the same upper bounds as the maximum over all `(h, w)`.

  The whole array `[32, 512, 56, 56]` reduced over both spatial axes at once: entry `(b, c)` is the maximum over the
  indices whose first two coordinates are `(b, c)`, and those are exactly the `(b, c, h, w)`.
-/
import proofs.«132552_j5875515261458_1_alg».proof.Proof.PoolSpec

noncomputable section

namespace Cert.Pool

open Idealize.ShloMosaic Idealize.ShloMosaic.ValueIdx

/-- The two-step spatial maximum of one image's block, at channel `c`. -/
theorem block_pool (v0 : FVec Ideal ⟨4, ![1, 512, 56, 56]⟩ .f32)
    (hr1 : (⟨4, ![1, 512, 56, 56]⟩ : Shape).Reduces [3] ⟨3, ![1, 512, 56]⟩)
    (hc1 : (⟨3, ![1, 512, 56]⟩ : Shape).ShapeCasts ⟨4, ![1, 512, 56, 1]⟩)
    (hr2 : (⟨4, ![1, 512, 56, 1]⟩ : Shape).Reduces [2] ⟨3, ![1, 512, 1]⟩)
    (hc2 : (⟨3, ![1, 512, 1]⟩ : Shape).ShapeCasts ⟨4, ![1, 512, 1, 1]⟩)
    (hφ1 hφ2 : FKind.Formats .f32)
    (ha1 : (0xFF800000#32 : BitVec 32) = FKind.maximumf.neutral .f32 hφ1)
    (ha2 : (0xFF800000#32 : BitVec 32) = FKind.maximumf.neutral .f32 hφ2) (c : Fin 512) :
    shapeCast ⟨4, ![1, 512, 1, 1]⟩
      (multiReduction .maximumf [2] ⟨3, ![1, 512, 1]⟩
        (shapeCast ⟨4, ![1, 512, 56, 1]⟩
          (multiReduction .maximumf [3] ⟨3, ![1, 512, 56]⟩ v0 0xFF800000#32 hr1 hφ1 ha1) hc1)
        0xFF800000#32 hr2 hφ2 ha2) hc2 (ix4 0 c 0 0)
      = pool v0 0 c := by
  rw [shapeCast_apply _ hc2 (ix4 0 c 0 0) (ix3 0 c 0)
    (by rw [Shape.rowMajor_val_three, Shape.rowMajor_val_four]
        show (0 * 512 + c.val) * 1 + 0 = ((0 * 512 + c.val) * 1 + 0) * 1 + 0
        omega)]
  refine eq_of_forall_ge_iff fun z => ?_
  rw [pool_le_iff, multiReduction_maximumf_eq_fold, fold_maximumf_le_iff]
  constructor
  · intro hh h w
    have h1 := hh (ix4 0 c h 0) (Finset.mem_filter.2 ⟨Finset.mem_univ _,
      (drop_mid_iff hr2 _ _).2 ⟨rfl, rfl, rfl⟩⟩)
    rw [shapeCast_apply _ hc1 (ix4 0 c h 0) (ix3 0 c h)
      (by rw [Shape.rowMajor_val_three, Shape.rowMajor_val_four]
          show (0 * 512 + c.val) * 56 + h.val = ((0 * 512 + c.val) * 56 + h.val) * 1 + 0
          omega),
      multiReduction_maximumf_eq_fold, fold_maximumf_le_iff] at h1
    exact h1 (ix4 0 c h w) (Finset.mem_filter.2 ⟨Finset.mem_univ _,
      (drop_last_iff hr1 _ _).2 ⟨rfl, rfl, rfl⟩⟩)
  · intro hh i' hi'
    obtain ⟨e0, e1, -⟩ := (drop_mid_iff hr2 _ _).1 (Finset.mem_filter.1 hi').2
    have l3 : (i' 3).val = 0 := by have := (i' 3).isLt; simp at this; omega
    rw [shapeCast_apply _ hc1 i' (ix3 (i' 0) (i' 1) (i' 2))
      (by rw [Shape.rowMajor_val_three, Shape.rowMajor_val_four]
          show (((i' 0).val * 512 + (i' 1).val) * 56 + (i' 2).val) = ((((i' 0).val * 512 + (i' 1).val) * 56 + (i' 2).val) * 1 + (i' 3).val)
          omega),
      multiReduction_maximumf_eq_fold, fold_maximumf_le_iff]
    intro i hi
    obtain ⟨f0, f1, f2⟩ := (drop_last_iff hr1 _ _).1 (Finset.mem_filter.1 hi).2
    have hi4 : i = ix4 0 c (i 2) (i 3) := by
      funext a; apply Fin.ext
      match a with
      | ⟨0, _⟩ => exact f0.trans e0
      | ⟨1, _⟩ => exact f1.trans e1
      | ⟨2, _⟩ => rfl
      | ⟨3, _⟩ => rfl
    rw [hi4]; exact hh _ _

/-- The host's maximum over both spatial axes at once, at image `b` and channel `c`. -/
theorem host_pool (x : FVec Ideal ⟨4, ![32, 512, 56, 56]⟩ .f32)
    (hr : (⟨4, ![32, 512, 56, 56]⟩ : Shape).ReducesTo [2, 3] ⟨2, ![32, 512]⟩)
    (hu : 0 < (⟨0, ![]⟩ : Shape).numel) (b : Fin 32) (c : Fin 512) :
    Host.reduce (FloatOps.maximumf (F := Ideal) (φ := .f32)) x (constant (F := Ideal) ⟨0, ![]⟩ .f32 0xFF800000#32) hr hu (ix2 b c)
      = pool x b c := by
  refine eq_of_forall_ge_iff fun z => ?_
  rw [pool_le_iff, Host.reduce_eq_fold]
  show (Finset.univ.filter fun i => hr.drop i = ix2 b c).fold (FloatOps.maximumf (F := Ideal) (φ := .f32))
    (FloatOps.ofBits (F := Ideal) .f32 0xFF800000#32) x ≤ z ↔ _
  rw [fold_maximumf_le_iff]
  constructor
  · intro hh h w
    exact hh (ix4 b c h w) (Finset.mem_filter.2 ⟨Finset.mem_univ _, (drop_spatial_iff hr _ _).2 ⟨rfl, rfl⟩⟩)
  · intro hh i hi
    obtain ⟨f0, f1⟩ := (drop_spatial_iff hr _ _).1 (Finset.mem_filter.1 hi).2
    have hi4 : i = ix4 b c (i 2) (i 3) := by
      funext a; apply Fin.ext
      match a with
      | ⟨0, _⟩ => exact f0
      | ⟨1, _⟩ => exact f1
      | ⟨2, _⟩ => rfl
      | ⟨3, _⟩ => rfl
    rw [hi4]; exact hh _ _

end Cert.Pool

end
-- ==== Proof.GateLaw.lean ====
/-
  The scalar law that joins the two programs.  With `g = 1 / (1 + e^(-y))` the kernel stores `x · (1 + g)` and the
  reference `g · x + x`.  On the extended reals multiplication distributes over a sum of two NON-NEGATIVE terms
  whatever the other factor is, and `g` is never negative: `e^z ≥ 0` for every extended real `z` (0 at `-∞`,
  `+∞` at `+∞`), so `1 + e^z ≥ 1 > 0` and its inverse is `≥ 0`.  Hence the two results agree at EVERY input,
  finite or not; no finiteness of `x` is used.
-/
import Idealize.ShloMosaic.PureOps.Ideal
import Mathlib.Data.EReal.Operations
import Mathlib.Data.EReal.Inv

namespace Cert.GateLaw

open Idealize.ShloMosaic

/-- The f32 pattern `0x3F800000` denotes the real number one. -/
theorem one_word : Ideal.ofBits .f32 0x3F800000#32 = 1 := by
  simp [Ideal.ofBits, Ideal.ieee, -EReal.coe_mul]; norm_num

/-- The exponential of an extended real is never negative. -/
theorem exp_nonneg (z : EReal) : 0 ≤ Ideal.exp z := by
  induction z using EReal.rec with
  | bot => exact le_of_eq Ideal.exp_bot.symm
  | coe r => rw [Ideal.exp_coe]; exact_mod_cast (Real.exp_pos r).le
  | top => rw [Ideal.exp_top]; exact le_top

/-- The logistic gate `1 / (1 + e^z)` is never negative. -/
theorem gate_nonneg (z : EReal) : 0 ≤ Ideal.div 1 (1 + Ideal.exp z) := by
  have h1 : (1 : EReal) ≤ 1 + Ideal.exp z := le_add_of_nonneg_right (exp_nonneg z)
  have hpos : (0 : EReal) < 1 + Ideal.exp z := lt_of_lt_of_le zero_lt_one h1
  unfold Ideal.div
  rw [if_neg hpos.ne', one_mul]
  exact EReal.inv_nonneg_of_nonneg hpos.le

/-- `x · (1 + g) = g · x + x` for a non-negative `g`, at every extended real `x`. -/
theorem gate_law (x g : EReal) (hg : 0 ≤ g) : x * (1 + g) = g * x + x := by
  rw [EReal.left_distrib_of_nonneg zero_le_one hg, mul_one, mul_comm x g, add_comm]

end Cert.GateLaw
-- ==== Proof.Spec.lean ====
/-
  What the program computes, as functions of the input array `x : [32, 512, 56, 56]`.

    pooled x (b, c, 0, 0)  = the maximum of channel `c` of image `b` over its spatial positions
    gate p                 = 1 / (1 + e^(-q)) entry by entry, where `q` is `p` taken through the two channel shuffles
                             (reshape to 16 × 32 groups, swap, flatten; reshape to 32 × 16, swap, flatten)
    result x (b, c, h, w)  = x (b, c, h, w) · (1 + gate (pooled x) (b, c, 0, 0))

  Both programs apply the very same shuffles and the same logistic to their pooled descriptor, so `gate` is kept as
  one function of the descriptor and never opened, except to see that its entries are never negative: that is all the
  law joining `x · (1 + g)` to `g · x + x` asks (GateLaw).
-/
import proofs.«132552_j5875515261458_1_alg».proof.Proof.Gen.KernelIdeal
import proofs.«132552_j5875515261458_1_alg».proof.Proof.PoolSpec
import proofs.«132552_j5875515261458_1_alg».proof.Proof.GateLaw

noncomputable section

namespace Cert.KernelIdeal.Spec

open Cert.KernelIdeal Cert.KernelIdeal.Facts₀
open Idealize.ShloMosaic Idealize.ShloMosaic.ValueIdx

/-- The pooled descriptor as a `[32, 512, 1, 1]` array. -/
def pooled (x : FVec Ideal S32x512x56x56 .f32) : FVec Ideal S32x512x1x1 .f32 :=
  fun j => Cert.Pool.pool x (j 0) (j 1)

/-- The channel gate of a descriptor: the two shuffles, then the logistic function written as the programs write it. -/
def gate (p : FVec Ideal S32x512x1x1 .f32) : FVec Ideal S32x512x1x1 .f32 :=
  Host.divf (F := Ideal) (broadcastInDim S32x512x1x1 ![] bcast_S_S32x512x1x1 (constant (F := Ideal) S_ .f32 0x3F800000#32))
    (addf (broadcastInDim S32x512x1x1 ![] bcast_S_S32x512x1x1 (constant (F := Ideal) S_ .f32 0x3F800000#32))
      (Host.exp (F := Ideal) (Host.negf (F := Ideal)
        (shapeCast _ (transpose S32x16x32x1x1 [0, 2, 1, 3, 4]
          (shapeCast _ (shapeCast _ (transpose S32x32x16x1x1 [0, 2, 1, 3, 4]
            (shapeCast _ p shapeCasts_S32x512x1x1_S32x16x32x1x1)
            transposes_S32x16x32x1x1_S32x32x16x1x1_0_2_1_3_4) shapeCasts_S32x32x16x1x1_S32x512x1x1)
            shapeCasts_S32x512x1x1_S32x32x16x1x1)
          transposes_S32x32x16x1x1_S32x16x32x1x1_0_2_1_3_4) shapeCasts_S32x16x32x1x1_S32x512x1x1))))

/-- A gate entry is never negative: it is `1 / (1 + e^z)` for some extended real `z`. -/
theorem gate_nonneg (p : FVec Ideal S32x512x1x1 .f32) (j : S32x512x1x1.Idx) : (0 : EReal) ≤ gate p j := by
  show (0 : EReal) ≤ Ideal.div (Ideal.ofBits .f32 0x3F800000#32) (Ideal.ofBits .f32 0x3F800000#32 + Ideal.exp _)
  rw [Cert.GateLaw.one_word]
  exact Cert.GateLaw.gate_nonneg _

/-- An array scaled, entry by entry, by one plus its channel's entry of a `[32, 512, 1, 1]` array. -/
def scaled (x : FVec Ideal S32x512x56x56 .f32) (g : FVec Ideal S32x512x1x1 .f32) : FVec Ideal S32x512x56x56 .f32 :=
  fun i => x i * (Ideal.ofBits .f32 0x3F800000#32 + g (ix4 (i 0) (i 1) 0 0))

/-- The result array: each entry scaled by one plus its channel's gate. -/
def result (x : FVec Ideal S32x512x56x56 .f32) : FVec Ideal S32x512x56x56 .f32 :=
  scaled x (gate (pooled x))

end Cert.KernelIdeal.Spec

end
-- ==== Proof.KernelValue.lean ====
/-
  The idealized kernel's result as a function of its input.

  Region 0 (one grid point per image): point `t` reads block `t` of `x` — image `t`, whole — and writes back block `t`
  of the descriptor, whose entry at channel `c` is the two-step spatial maximum of the image's channel `c`, that is
  `pool x t c`.  The 32 blocks `[1, 512, 1, 1]` tile the descriptor array, so after the region it is `pooled x`.

  The fourteen host operations between the regions turn the descriptor into the gate array, `gate (pooled x)`, and
  leave `x` alone.

  Region 1 (again one point per image): point `t` reads image `t` of `x` and block `t` of the gate array and writes
  back `x · (1 + g)` with the gate entry of the entry's channel.  The 32 blocks tile the result array, so it ends at
  `scaled x (gate (pooled x))`, which is `result x`.
-/
import proofs.«132552_j5875515261458_1_alg».proof.Proof.KernelRun
import proofs.«132552_j5875515261458_1_alg».proof.Proof.PoolForms
import proofs.«132552_j5875515261458_1_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.Val

open Cert.KernelIdeal Cert.KernelIdeal.Gen Cert.KernelIdeal.GenRun Cert.KernelIdeal.Spec
open Idealize.ShloMosaic Idealize.ShloMosaic.TcCoe Idealize.SL.Sem Idealize.ShloMosaic.ValueIdx
open Idealize.ShloMosaic.Pipeline (Dat)

theorem hz4 : (![0, 0, 0, 0] : Fin 4 → Nat) = fun _ => 0 := funext fun a => by fin_cases a <;> rfl

/-- `pool` depends on the image and the channel only through their numbers. -/
theorem pool_congr {B : Nat} (x : (⟨4, ![B, 512, 56, 56]⟩ : Shape).Idx → EReal) (b b' : Fin B) (c c' : Fin 512)
    (hb : b.val = b'.val) (hc : c.val = c'.val) : Cert.Pool.pool x b c = Cert.Pool.pool x b' c' := by
  obtain rfl : b = b' := Fin.ext hb
  obtain rfl : c = c' := Fin.ext hc
  rfl

/-! ## The index maps, decided over the grids: every window's block index at point `t` is `(t, 0, 0, 0)` -/

theorem idx0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

theorem idx1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)

section Regions

variable (V : (c : Dev nD) → (b : Ref sig .tc) → Buf (Elt Ideal) ((c : Thread nD τ).loc b))

/-! ## Region 0: the pooled descriptor -/

/-- The body's stored value at channel `c'`: the block's spatial maximum. -/
theorem payload0_at (x0 : FVec Ideal S1x512x56x56 .f32) (c' : Fin 512) :
    k0_pay1 (F := Ideal) x0 (ix4 0 c' 0 0) = Cert.Pool.pool x0 0 c' := by
  unfold k0_pay1
  exact Cert.Pool.block_pool x0 _ _ _ _ _ _ _ _ c'

/-- Block `t` of the input is image `t`. -/
theorem blk0_read (c : Dev nD) (t : Fin cfg0.N) (c' : Fin 512) (h w : Fin 56) (b : Fin 32) (hb : b.val = t.val) :
    (iblk0 V c 0 t : FVec Ideal S1x512x56x56 .f32) (ix4 0 c' h w) = (V c main_arg0 : FVec Ideal S32x512x56x56 .f32) (ix4 b c' h w) := by
  obtain ⟨e0, e1, e2, e3, -⟩ := idx0 t
  unfold iblk0
  rw [View.read_apply]
  show V c main_arg0 _ = V c main_arg0 _
  refine congrArg _ (funext fun a => Fin.ext ?_)
  match a with
  | ⟨0, _⟩ => show win0_0.index t (0 : Fin 4) * 1 + 1 * 0 = b.val; omega
  | ⟨1, _⟩ => show win0_0.index t (1 : Fin 4) * 512 + 1 * c'.val = c'.val; omega
  | ⟨2, _⟩ => show win0_0.index t (2 : Fin 4) * 56 + 1 * h.val = h.val; omega
  | ⟨3, _⟩ => show win0_0.index t (3 : Fin 4) * 56 + 1 * w.val = w.val; omega

/-- So the block's spatial maximum is the image's. -/
theorem pool_blk0 (c : Dev nD) (t : Fin cfg0.N) (c' : Fin 512) (b : Fin 32) (hb : b.val = t.val) :
    Cert.Pool.pool (B := 1) (iblk0 V c 0 t : FVec Ideal S1x512x56x56 .f32) 0 c'
      = Cert.Pool.pool (B := 32) (V c main_arg0 : FVec Ideal S32x512x56x56 .f32) b c' := by
  unfold Cert.Pool.pool
  exact congrArg (fun f => Finset.fold max ⊥ f Finset.univ) (funext fun hw => blk0_read V c t c' hw.1 hw.2 b hb)

/-- What point `t` stores, at a block index, is the descriptor's entry there. -/
theorem flushed0_at (c : Dev nD) (t : Fin cfg0.N) (y : S1x512x1x1.Idx) :
    k0_pay1 (F := Ideal) (iblk0 V c 0 t) y
      = pooled (V c main_arg0) (((cfg0.win 1).blk t).view.emb y) := by
  obtain ⟨-, -, -, -, e0, e1, e2, e3⟩ := idx0 t
  have y0 : (y 0).val < 1 := (y 0).isLt
  have y2 : (y 2).val < 1 := (y 2).isLt
  have y3 : (y 3).val < 1 := (y 3).isLt
  have hy : y = ix4 0 (y 1) 0 0 := by
    funext a; apply Fin.ext
    match a with
    | ⟨0, _⟩ => show (y 0).val = 0; omega
    | ⟨1, _⟩ => rfl
    | ⟨2, _⟩ => show (y 2).val = 0; omega
    | ⟨3, _⟩ => show (y 3).val = 0; omega
  have ht : t.val < 32 := lt_of_lt_of_eq t.isLt N_0
  refine (congrArg (k0_pay1 (F := Ideal) (iblk0 V c 0 t)) hy).trans ?_
  refine (payload0_at _ (y 1)).trans ?_
  refine (pool_blk0 V c t (y 1) ⟨t.val, ht⟩ rfl).trans ?_
  unfold pooled
  refine pool_congr _ _ _ _ _ ?_ ?_
  · show t.val = win0_1.index t (0 : Fin 4) * 1 + 1 * (y 0).val; omega
  · show (y 1).val = win0_1.index t (1 : Fin 4) * 512 + 1 * (y 1).val; omega

/-! ## Region 1: the scaling -/

/-- The body's stored value at an index: the entry times one plus its channel's gate entry. -/
theorem payload1_at (v0 : FVec Ideal S1x512x1x1 .f32) (v2 : FVec Ideal S1x512x56x56 .f32) (y : S1x512x56x56.Idx)
    (c' : Fin 512) (hc : c'.val = (y 1).val) :
    k1_pay1 (F := Ideal) v0 v2 y = v2 y * (Ideal.ofBits .f32 0x3F800000#32 + v0 (ix4 0 c' 0 0)) := by
  unfold k1_pay1
  show v2 y * (broadcastTo S1x512x56x56 (addf (broadcast S1x512x1x1 (Scalar.ofBits (F := Ideal) .f32 0x3F800000#32))
    (shapeCast S1x512x1x1 v0 _)) _ y) = _
  refine congrArg (fun r : EReal => v2 y * r) ?_
  refine (broadcastTo_apply _ _ y (ix4 0 c' 0 0) (fun a => match a with
    | ⟨0, _⟩ => by show 0 = if (1 : Nat) = 1 then 0 else _; rw [if_pos rfl]
    | ⟨1, _⟩ => by show c'.val = if (512 : Nat) = 1 then 0 else (y 1).val; rw [if_neg (by decide)]; exact hc
    | ⟨2, _⟩ => by show 0 = if (1 : Nat) = 1 then 0 else _; rw [if_pos rfl]
    | ⟨3, _⟩ => by show 0 = if (1 : Nat) = 1 then 0 else _; rw [if_pos rfl])).trans ?_
  rw [shapeCast_self]
  rfl

/-- What point `t` stores, at a block index, is the scaled array's entry there. -/
theorem flushed1_at (c : Dev nD) (t : Fin cfg1.N) (y : S1x512x56x56.Idx) :
    k1_pay1 (F := Ideal) (iblk1 V c 1 t) (iblk1 V c 0 t) y
      = scaled (V c main_arg0) (V c main_v12) (((cfg1.win 2).blk t).view.emb y) := by
  obtain ⟨a0, a1, a2, a3, b0, b1, b2, b3, d0, d1, d2, d3⟩ := idx1 t
  have y0 : (y 0).val < 1 := (y 0).isLt
  have r0 : (iblk1 V c 0 t : FVec Ideal S1x512x56x56 .f32) y
      = (V c main_arg0 : FVec Ideal S32x512x56x56 .f32) (((cfg1.win 2).blk t).view.emb y) := by
    unfold iblk1
    rw [View.read_apply]
    show V c main_arg0 _ = V c main_arg0 _
    refine congrArg _ (funext fun a => Fin.ext ?_)
    match a with
    | ⟨0, _⟩ => show win1_0.index t (0 : Fin 4) * 1 + 1 * (y 0).val = win1_2.index t (0 : Fin 4) * 1 + 1 * (y 0).val; omega
    | ⟨1, _⟩ => show win1_0.index t (1 : Fin 4) * 512 + 1 * (y 1).val = win1_2.index t (1 : Fin 4) * 512 + 1 * (y 1).val; omega
    | ⟨2, _⟩ => show win1_0.index t (2 : Fin 4) * 56 + 1 * (y 2).val = win1_2.index t (2 : Fin 4) * 56 + 1 * (y 2).val; omega
    | ⟨3, _⟩ => show win1_0.index t (3 : Fin 4) * 56 + 1 * (y 3).val = win1_2.index t (3 : Fin 4) * 56 + 1 * (y 3).val; omega
  have r1 : (iblk1 V c 1 t : FVec Ideal S1x512x1x1 .f32) (ix4 0 (⟨(y 1).val, (y 1).isLt⟩ : Fin 512) 0 0)
      = (V c main_v12 : FVec Ideal S32x512x1x1 .f32)
          (ix4 (((cfg1.win 2).blk t).view.emb y 0) (((cfg1.win 2).blk t).view.emb y 1) 0 0) := by
    unfold iblk1
    rw [View.read_apply]
    show V c main_v12 _ = V c main_v12 _
    refine congrArg _ (funext fun a => Fin.ext ?_)
    match a with
    | ⟨0, _⟩ => show win1_1.index t (0 : Fin 4) * 1 + 1 * 0 = win1_2.index t (0 : Fin 4) * 1 + 1 * (y 0).val; omega
    | ⟨1, _⟩ => show win1_1.index t (1 : Fin 4) * 512 + 1 * (y 1).val = win1_2.index t (1 : Fin 4) * 512 + 1 * (y 1).val; omega
    | ⟨2, _⟩ => show win1_1.index t (2 : Fin 4) * 1 + 1 * 0 = 0; omega
    | ⟨3, _⟩ => show win1_1.index t (3 : Fin 4) * 1 + 1 * 0 = 0; omega
  refine (payload1_at _ _ y ⟨(y 1).val, (y 1).isLt⟩ rfl).trans ?_
  unfold scaled
  exact congrArg₂ (fun (a b : EReal) => a * (Ideal.ofBits .f32 0x3F800000#32 + b)) r0 r1

end Regions

/-! ## The run's arrays -/

variable (m : (ℓ : Loc nD τ sig) → Buf (Elt Ideal) ℓ) (ρ : Dev nD → PrngReg)

/-- Point `t` of region 0 writes back block `t` of the pooled descriptor. -/
theorem flushed0 (c : Dev nD) (t : Fin cfg0.N) :
    (dat0 (V0 m ρ) c).flushed 1 t
      = ((cfg0.win 1).blk t).view.read (Elt Ideal) (pooled (V0 m ρ c main_arg0)) := by
  show (cfg0.win 1).cut (grid0.coords t) ((dat0 (V0 m ρ) c).after 1 t) = _
  rw [after0_1]
  unfold out0_1
  rw [View.canon_unit_zero hz4]
  simp only [View.ld_unit_zero (S := S1x512x56x56) hz4]
  funext y
  exact flushed0_at (V0 m ρ) c t y

/-- The 32 blocks tile the descriptor array. -/
theorem cover0 (i : S32x512x1x1.Idx) :
    ∃ t : Fin cfg0.N, (cfg0.win 1).flush t = true ∧ i ∈ ((cfg0.win 1).blk t).view.set := by
  have h0 : (i 0).val < 32 := (i 0).isLt
  have h1 : (i 1).val < 512 := (i 1).isLt
  have h2 : (i 2).val < 1 := (i 2).isLt
  have h3 : (i 3).val < 1 := (i 3).isLt
  obtain ⟨t, ht⟩ : ∃ t : Fin cfg0.N, t.val = (i 0).val := ⟨⟨(i 0).val, lt_of_lt_of_eq h0 N_0.symm⟩, rfl⟩
  obtain ⟨-, -, -, -, e0, e1, e2, e3⟩ := idx0 t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 512 ≤ (i 1).val ∧ (i 1).val < win0_1.index t (1 : Fin 4) * 512 + 512; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

/-- After region 0 the descriptor array holds `pooled x`. -/
theorem final0 (c : Dev nD) : (dat0 (V0 m ρ) c).arrAt 1 cfg0.N = pooled (V0 m ρ c main_arg0) :=
  (dat0 (V0 m ρ) c).arrAt_eq_of_cover 1 (pooled (V0 m ρ c main_arg0)) (fun t _ => flushed0 m ρ c t) cover0

/-- The host operations between the regions: the gate array from the descriptor, the input untouched. -/
theorem gate_chain (W : Valuation τ sig (Elt Ideal)) :
    StableHlo.after hostOps1 W (Proc.devRef .tc main_v12) = gate (W (Proc.devRef .tc main_v0)) := by
  unfold gate
  after_results
  rfl

theorem input_chain (W : Valuation τ sig (Elt Ideal)) :
    StableHlo.after hostOps1 W (Proc.devRef .tc main_arg0) = W (Proc.devRef .tc main_arg0) := by
  after_results

/-- Point `t` of region 1 writes back block `t` of the scaled array. -/
theorem flushed1 (c : Dev nD) (t : Fin cfg1.N) :
    (dat1 (V2 m ρ) c).flushed 2 t
      = ((cfg1.win 2).blk t).view.read (Elt Ideal) (scaled (V2 m ρ c main_arg0) (V2 m ρ c main_v12)) := by
  show (cfg1.win 2).cut (grid1.coords t) ((dat1 (V2 m ρ) c).after 2 t) = _
  rw [after1_2]
  unfold out1_2
  rw [View.canon_unit_zero hz4]
  simp only [View.ld_unit_zero (S := S1x512x56x56) hz4, View.ld_unit_zero (S := S1x512x1x1) hz4]
  funext y
  exact flushed1_at (V2 m ρ) c t y

/-- The 32 blocks tile the result array. -/
theorem cover1 (i : S32x512x56x56.Idx) :
    ∃ t : Fin cfg1.N, (cfg1.win 2).flush t = true ∧ i ∈ ((cfg1.win 2).blk t).view.set := by
  have h0 : (i 0).val < 32 := (i 0).isLt
  have h1 : (i 1).val < 512 := (i 1).isLt
  have h2 : (i 2).val < 56 := (i 2).isLt
  have h3 : (i 3).val < 56 := (i 3).isLt
  obtain ⟨t, ht⟩ : ∃ t : Fin cfg1.N, t.val = (i 0).val := ⟨⟨(i 0).val, lt_of_lt_of_eq h0 N_1.symm⟩, rfl⟩
  obtain ⟨-, -, -, -, -, -, -, -, e0, e1, e2, e3⟩ := idx1 t
  refine ⟨t, flush1_2 t, ?_⟩
  show i ∈ ((View.whole main_v13).slice (win1_2.rect t)).set
  rw [View.set_slice_whole, Rect.mem_set_unit]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 512 ≤ (i 1).val ∧ (i 1).val < win1_2.index t (1 : Fin 4) * 512 + 512; omega
  | ⟨2, _⟩ => show win1_2.index t (2 : Fin 4) * 56 ≤ (i 2).val ∧ (i 2).val < win1_2.index t (2 : Fin 4) * 56 + 56; omega
  | ⟨3, _⟩ => show win1_2.index t (3 : Fin 4) * 56 ≤ (i 3).val ∧ (i 3).val < win1_2.index t (3 : Fin 4) * 56 + 56; omega

/-- After region 1 the result array holds the scaled array. -/
theorem final1 (c : Dev nD) :
    (dat1 (V2 m ρ) c).arrAt 2 cfg1.N = scaled (V2 m ρ c main_arg0) (V2 m ρ c main_v12) :=
  (dat1 (V2 m ρ) c).arrAt_eq_of_cover 2 (scaled (V2 m ρ c main_arg0) (V2 m ρ c main_v12))
    (fun t _ => flushed1 m ρ c t) cover1

/-- The result array after the run, as a function of the launch contents of the input. -/
theorem value (c : Dev nD) : V3 m ρ c main_v13 = result (m ((c.tc : Thread nD τ).loc main_arg0)) := by
  have x1 : V1 m ρ c main_arg0 = m ((c.tc : Thread nD τ).loc main_arg0) :=
    (W1_arr m ρ c 0).trans (((dat0 (V0 m ρ) c).arrAt_in 0 rfl _).trans (A_eq0 (V0 m ρ) c 0))
  have x2 : V2 m ρ c main_arg0 = m ((c.tc : Thread nD τ).loc main_arg0) := (input_chain (W1 m ρ c)).trans x1
  have p1 : V1 m ρ c main_v0 = pooled (m ((c.tc : Thread nD τ).loc main_arg0)) :=
    (W1_arr m ρ c 1).trans (final0 m ρ c)
  have g2 : V2 m ρ c main_v12 = gate (pooled (m ((c.tc : Thread nD τ).loc main_arg0))) :=
    (gate_chain (W1 m ρ c)).trans (congrArg gate p1)
  calc V3 m ρ c main_v13
      = (dat1 (V2 m ρ) c).arrAt 2 cfg1.N := W3_arr m ρ c 2
    _ = scaled (V2 m ρ c main_arg0) (V2 m ρ c main_v12) := final1 m ρ c
    _ = result (m ((c.tc : Thread nD τ).loc main_arg0)) := by rw [x2, g2]; rfl

/-- Every weakly fair execution of the idealized kernel ends with the result array at `result x` and the input as
    launched. -/
theorem run : θ_run defs (onTc (τ := τ) (main (F := Ideal))) ⟨m, fun _ => 0, ρ⟩ (fun r => ∀ c : Dev nD,
      r.2.mem ((c.tc : Thread nD τ).loc main_v13) = result (m ((c.tc : Thread nD τ).loc main_arg0))
      ∧ r.2.mem ((c.tc : Thread nD τ).loc main_arg0) = m ((c.tc : Thread nD τ).loc main_arg0)) :=
  (θ_run defs _ _).mono (fun _ h c => ⟨(h c).1.trans (value m ρ c), (h c).2⟩) (run_main m ρ)

end Cert.KernelIdeal.Val

end
-- ==== Proof.RefValue.lean ====
/-
  The idealized reference's result is the same function of the input.

  Its pooled descriptor — the host's maximum over both spatial axes at once, laid out as `[32, 512, 1, 1]` — is
  `pooled x` (PoolForms).  The operations that follow are the kernel program's own shuffles and logistic, so the gate
  array is `gate (pooled x)`.  Its last three operations broadcast the gate over the spatial positions and form
  `g · x + x`, which is `x · (1 + g)` because a gate entry is never negative (GateLaw).
-/
import proofs.«132552_j5875515261458_1_alg».proof.Proof.Gen.ReferenceIdeal.Run
import proofs.«132552_j5875515261458_1_alg».proof.Proof.PoolForms
import proofs.«132552_j5875515261458_1_alg».proof.Proof.Spec
import Idealize.ShloMosaic.Lib.Pipeline.Value

noncomputable section

namespace Cert.ReferenceIdeal.RefVal

open Cert.ReferenceIdeal Cert.ReferenceIdeal.Facts₀
open Idealize.ShloMosaic Idealize.ShloMosaic.ValueIdx

/-- The host's descriptor is the pooled descriptor. -/
theorem pooled_eq (x : FVec Ideal S32x512x56x56 .f32) :
    (broadcastInDim S32x512x1x1 ![0, 1] bcast_S32x512_S32x512x1x1_0_1
      (Host.reduce (FloatOps.maximumf (F := Ideal) (φ := .f32)) x (constant (F := Ideal) S_ .f32 0xFF800000#32)
        reducesTo_S32x512x56x56_S32x512_d2_3 h_S_) : FVec Ideal S32x512x1x1 .f32)
      = Cert.KernelIdeal.Spec.pooled x := by
  funext j
  rw [broadcastInDim_apply _ bcast_S32x512_S32x512x1x1_0_1 _ j (ix2 (j 0) (j 1)) (fun a => match a with
    | ⟨0, _⟩ => by show (j 0).val = if (32 : Nat) = 1 then 0 else (j 0).val; rw [if_neg (by decide)]
    | ⟨1, _⟩ => by show (j 1).val = if (512 : Nat) = 1 then 0 else (j 1).val; rw [if_neg (by decide)])]
  exact Cert.Pool.host_pool x _ _ (j 0) (j 1)

/-- The reference's operations from the descriptor to the gate array are the kernel program's: `gate`. -/
theorem gate_eq (p : FVec Ideal S32x512x1x1 .f32) :
    Host.divf (F := Ideal) (broadcastInDim S32x512x1x1 ![] bcast_S_S32x512x1x1 (constant (F := Ideal) S_ .f32 0x3F800000#32)) (addf (broadcastInDim S32x512x1x1 ![] bcast_S_S32x512x1x1 (constant (F := Ideal) S_ .f32 0x3F800000#32)) (Host.exp (F := Ideal) (Host.negf (F := Ideal) (shapeCast _ (transpose S32x16x32x1x1 [0, 2, 1, 3, 4] (shapeCast _ (shapeCast _ (transpose S32x32x16x1x1 [0, 2, 1, 3, 4] (shapeCast _ p shapeCasts_S32x512x1x1_S32x16x32x1x1) transposes_S32x16x32x1x1_S32x32x16x1x1_0_2_1_3_4) shapeCasts_S32x32x16x1x1_S32x512x1x1) shapeCasts_S32x512x1x1_S32x32x16x1x1) transposes_S32x32x16x1x1_S32x16x32x1x1_0_2_1_3_4) shapeCasts_S32x16x32x1x1_S32x512x1x1))))
      = Cert.KernelIdeal.Spec.gate p := rfl

/-- One entry of the last three operations: the gate entry of the entry's channel times the entry, plus the entry. -/
theorem tail_apply (g : FVec Ideal S32x512x1x1 .f32) (x : FVec Ideal S32x512x56x56 .f32) (i : S32x512x56x56.Idx) :
    addf (mulf (broadcastInDim S32x512x56x56 ![0, 1, 2, 3] bcast_S32x512x1x1_S32x512x56x56_0_1_2_3 g) x) x i
      = g (ix4 (i 0) (i 1) 0 0) * x i + x i := by
  refine congrArg (fun r : EReal => r * x i + x i) ?_
  exact broadcastInDim_apply _ bcast_S32x512x1x1_S32x512x56x56_0_1_2_3 g i (ix4 (i 0) (i 1) 0 0) (fun a => match a with
    | ⟨0, _⟩ => by show (i 0).val = if (32 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])

/-- The reference's result term is `result x`. -/
theorem result_eq (x : FVec Ideal S32x512x56x56 .f32) :
    addf (mulf (broadcastInDim S32x512x56x56 ![0, 1, 2, 3] bcast_S32x512x1x1_S32x512x56x56_0_1_2_3 (Host.divf (F := Ideal) (broadcastInDim S32x512x1x1 ![] bcast_S_S32x512x1x1 (constant (F := Ideal) S_ .f32 0x3F800000#32)) (addf (broadcastInDim S32x512x1x1 ![] bcast_S_S32x512x1x1 (constant (F := Ideal) S_ .f32 0x3F800000#32)) (Host.exp (F := Ideal) (Host.negf (F := Ideal) (shapeCast _ (transpose S32x16x32x1x1 [0, 2, 1, 3, 4] (shapeCast _ (shapeCast _ (transpose S32x32x16x1x1 [0, 2, 1, 3, 4] (shapeCast _ (broadcastInDim S32x512x1x1 ![0, 1] bcast_S32x512_S32x512x1x1_0_1 (Host.reduce (FloatOps.maximumf (F := Ideal) (φ := .f32)) x (constant (F := Ideal) S_ .f32 0xFF800000#32) reducesTo_S32x512x56x56_S32x512_d2_3 h_S_)) shapeCasts_S32x512x1x1_S32x16x32x1x1) transposes_S32x16x32x1x1_S32x32x16x1x1_0_2_1_3_4) shapeCasts_S32x32x16x1x1_S32x512x1x1) shapeCasts_S32x512x1x1_S32x32x16x1x1) transposes_S32x32x16x1x1_S32x16x32x1x1_0_2_1_3_4) shapeCasts_S32x16x32x1x1_S32x512x1x1)))))) x) x
      = Cert.KernelIdeal.Spec.result x := by
  rw [gate_eq, pooled_eq]
  funext i
  refine (tail_apply _ x i).trans ?_
  unfold Cert.KernelIdeal.Spec.result Cert.KernelIdeal.Spec.scaled
  show _ = x i * (Ideal.ofBits .f32 0x3F800000#32 + _)
  rw [Cert.GateLaw.one_word]
  exact (Cert.GateLaw.gate_law _ _ (Cert.KernelIdeal.Spec.gate_nonneg _ _)).symm

end Cert.ReferenceIdeal.RefVal

end
-- ==== Proof.lean ====
/-
  The channel gate `out = x · (1 + σ(shuffle(maxpool x)))` in two pallas_calls (a spatial maximum per image and
  channel; a scaling by one plus the gate) around host glue, against the jnp reference `σ(…) · x + x`.

  At the ideal values both programs compute one function of the input, `Spec.result`:
    * the two-step maximum of the first region's body and the host's maximum over both spatial axes at once are the
      same least upper bound (PoolForms);
    * the shuffles and the logistic are the same operations in both programs, kept as one function `Spec.gate`;
    * `x · (1 + g) = g · x + x` on the extended reals for `g ≥ 0`, and a logistic value is never negative (GateLaw);
      so the claim holds at every input and the finiteness precondition is not used.
  The three frames: the two kernel programs' are the generated frame certificates; the reference's is its generated run
  with the result dropped.  The idealization rewrote nothing, so `preserves` is trivial.
-/
import proofs.«132552_j5875515261458_1_alg».proof.Defs
import proofs.«132552_j5875515261458_1_alg».proof.Proof.Gen.Kernel
import proofs.«132552_j5875515261458_1_alg».proof.Proof.Gen.Kernel.Frame
import proofs.«132552_j5875515261458_1_alg».proof.Proof.Gen.KernelIdeal
import proofs.«132552_j5875515261458_1_alg».proof.Proof.Gen.KernelIdeal.Frame
import proofs.«132552_j5875515261458_1_alg».proof.Proof.Gen.ReferenceIdeal
import proofs.«132552_j5875515261458_1_alg».proof.Proof.Gen.ReferenceIdeal.Run
import proofs.«132552_j5875515261458_1_alg».proof.Proof.Gen.Pre_finite_inputs
import proofs.«132552_j5875515261458_1_alg».proof.Proof.KernelValue
import proofs.«132552_j5875515261458_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Spec.result` of the shared input. -/
theorem algebraic : Cert.algebraic_KernelIdeal_ReferenceIdeal := by
  intro m ρ m' ρ' _ hagree
  refine ⟨fun c => Cert.KernelIdeal.Spec.result (m ((c.tc : Thread Cert.KernelIdeal.nD Cert.KernelIdeal.τ).loc Cert.KernelIdeal.main_arg0)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.RefVal.result_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
